-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x524288x7x7 : Shape := ⟨4, ![1, 524288, 7, 7]⟩
abbrev S49x524288 : Shape := ⟨2, ![49, 524288]⟩
abbrev S_ : Shape := ⟨0, ![]⟩

class Facts : Prop where
  bcast_S_S1x524288x7x7 : S_.BroadcastsInDim S1x524288x7x7 (![] : Fin 0 → Fin S1x524288x7x7.rank)
  reducesTo_S1x524288x7x7_S_d0_1_2_3 : S1x524288x7x7.ReducesTo [0, 1, 2, 3] S_
  h_S_ : 0 < S_.numel
  bcast_S_S49x524288 : S_.BroadcastsInDim S49x524288 (![] : Fin 0 → Fin S49x524288.rank)
  reducesTo_S49x524288_S_d0_1 : S49x524288.ReducesTo [0, 1] S_

variable [Facts]

def fn {F : FTy → Type} [FloatOps F] (main_arg0 : FVec F S1x524288x7x7 .f32) (main_arg1 : FVec F S49x524288 .f32) (main_arg2 : FVec F S49x524288 .f32) : IVec S_ 1 :=
  let main_v0 : FVec F S1x524288x7x7 .f32 := Host.absf main_arg0
  let main_cst : FVec F S_ .f32 := constant S_ .f32 0x7F800000#32
  let main_v1 : FVec F S1x524288x7x7 .f32 := broadcastInDim S1x524288x7x7 ![] bcast_S_S1x524288x7x7 main_cst
  let main_v2 : IVec S1x524288x7x7 1 := cmpf .olt main_v0 main_v1
  let main_c : IVec S_ 1 := constantI S_ 1 1#1
  let main_v3 : IVec S_ 1 := (fun x v => Host.reduce IntOp.andi x v reducesTo_S1x524288x7x7_S_d0_1_2_3 h_S_) main_v2 main_c
  let main_v4 : FVec F S49x524288 .f32 := Host.absf main_arg1
  let main_cst_0 : FVec F S_ .f32 := constant S_ .f32 0x7F800000#32
  let main_v5 : FVec F S49x524288 .f32 := broadcastInDim S49x524288 ![] bcast_S_S49x524288 main_cst_0
  let main_v6 : IVec S49x524288 1 := cmpf .olt main_v4 main_v5
  let main_c_1 : IVec S_ 1 := constantI S_ 1 1#1
  let main_v7 : IVec S_ 1 := (fun x v => Host.reduce IntOp.andi x v reducesTo_S49x524288_S_d0_1 h_S_) main_v6 main_c_1
  let main_v8 : IVec S_ 1 := andi main_v3 main_v7
  let main_v9 : FVec F S49x524288 .f32 := Host.absf main_arg2
  let main_cst_2 : FVec F S_ .f32 := constant S_ .f32 0x7F800000#32
  let main_v10 : FVec F S49x524288 .f32 := broadcastInDim S49x524288 ![] bcast_S_S49x524288 main_cst_2
  let main_v11 : IVec S49x524288 1 := cmpf .olt main_v9 main_v10
  let main_c_3 : IVec S_ 1 := constantI S_ 1 1#1
  let main_v12 : IVec S_ 1 := (fun x v => Host.reduce IntOp.andi x v reducesTo_S49x524288_S_d0_1 h_S_) main_v11 main_c_3
  let main_v13 : IVec S_ 1 := andi main_v8 main_v12
  main_v13
-- ==== Kernel.lean ====
abbrev S1x524288x7x7 : Shape := ⟨4, ![1, 524288, 7, 7]⟩
abbrev S49x524288 : Shape := ⟨2, ![49, 524288]⟩
abbrev S524288x7x7 : Shape := ⟨3, ![524288, 7, 7]⟩
abbrev S7x7x524288 : Shape := ⟨3, ![7, 7, 524288]⟩
abbrev S7x7x8192 : Shape := ⟨3, ![7, 7, 8192]⟩
abbrev S1x7x8192 : Shape := ⟨3, ![1, 7, 8192]⟩
abbrev S7x8192 : Shape := ⟨2, ![7, 8192]⟩
abbrev S7x1x8192 : Shape := ⟨3, ![7, 1, 8192]⟩

abbrev nBuf : Space → Nat
  | .hbm => 9
  | .vmem => 8
  | .smem => 0
  | _ => 0

abbrev bufTy : (tb : Table) → Fin (tcTables nBuf tb) → BufTy
  | .hbm, ⟨0, _⟩ => ⟨S1x524288x7x7, .f32⟩
  | .hbm, ⟨1, _⟩ => ⟨S49x524288, .f32⟩
  | .hbm, ⟨2, _⟩ => ⟨S49x524288, .f32⟩
  | .hbm, ⟨3, _⟩ => ⟨S524288x7x7, .f32⟩
  | .hbm, ⟨4, _⟩ => ⟨S7x7x524288, .f32⟩
  | .hbm, ⟨5, _⟩ => ⟨S7x7x524288, .f32⟩
  | .hbm, ⟨6, _⟩ => ⟨S7x7x524288, .f32⟩
  | .hbm, ⟨7, _⟩ => ⟨S7x7x524288, .f32⟩
  | .hbm, ⟨8, _⟩ => ⟨S49x524288, .f32⟩
  | .local _ .vmem, ⟨0, _⟩ => ⟨S7x7x8192, .f32⟩
  | .local _ .vmem, ⟨1, _⟩ => ⟨S7x7x8192, .f32⟩
  | .local _ .vmem, ⟨2, _⟩ => ⟨S7x7x8192, .f32⟩
  | .local _ .vmem, ⟨3, _⟩ => ⟨S7x7x8192, .f32⟩
  | .local _ .vmem, ⟨4, _⟩ => ⟨S7x7x8192, .f32⟩
  | .local _ .vmem, ⟨5, _⟩ => ⟨S7x7x8192, .f32⟩
  | .local _ .vmem, ⟨6, _⟩ => ⟨S7x7x8192, .f32⟩
  | .local _ .vmem, ⟨7, _⟩ => ⟨S7x7x8192, .f32⟩
  | _, _ => ⟨S1x524288x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S7x7x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x7x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x7x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7x7x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x524288x7x7_S524288x7x7 : S1x524288x7x7.ShapeCasts S524288x7x7
  transposes_S524288x7x7_S7x7x524288_1_2_0 : S524288x7x7.Transposes [1, 2, 0] S7x7x524288
  shapeCasts_S49x524288_S7x7x524288 : S49x524288.ShapeCasts S7x7x524288
  inb_S7x7x8192_S1x7x8192_0_0_0 : ∀ a, (![0, 0, 0] : Fin 3 → Nat) a + S1x7x8192.size a ≤ S7x7x8192.size a
  h_S1x7x8192 : 0 < S1x7x8192.numel
  shapeCasts_S1x7x8192_S7x8192 : S1x7x8192.ShapeCasts S7x8192
  shapeCasts_S7x8192_S7x1x8192 : S7x8192.ShapeCasts S7x1x8192
  shapeCasts_S7x8192_S1x7x8192 : S7x8192.ShapeCasts S1x7x8192
  broadcasts_S7x1x8192_S7x7x8192 : S7x1x8192.Broadcasts S7x7x8192
  broadcasts_S1x7x8192_S7x7x8192 : S1x7x8192.Broadcasts S7x7x8192
  inb_S7x7x8192_S1x7x8192_1_0_0 : ∀ a, (![1, 0, 0] : Fin 3 → Nat) a + S1x7x8192.size a ≤ S7x7x8192.size a
  inb_S7x7x8192_S1x7x8192_2_0_0 : ∀ a, (![2, 0, 0] : Fin 3 → Nat) a + S1x7x8192.size a ≤ S7x7x8192.size a
  inb_S7x7x8192_S1x7x8192_3_0_0 : ∀ a, (![3, 0, 0] : Fin 3 → Nat) a + S1x7x8192.size a ≤ S7x7x8192.size a
  inb_S7x7x8192_S1x7x8192_4_0_0 : ∀ a, (![4, 0, 0] : Fin 3 → Nat) a + S1x7x8192.size a ≤ S7x7x8192.size a
  inb_S7x7x8192_S1x7x8192_5_0_0 : ∀ a, (![5, 0, 0] : Fin 3 → Nat) a + S1x7x8192.size a ≤ S7x7x8192.size a
  inb_S7x7x8192_S1x7x8192_6_0_0 : ∀ a, (![6, 0, 0] : Fin 3 → Nat) a + S1x7x8192.size a ≤ S7x7x8192.size a
  inb_S7x7x8192_S7x7x8192_0_0_0 : ∀ a, (![0, 0, 0] : Fin 3 → Nat) a + S7x7x8192.size a ≤ S7x7x8192.size a
  h_S7x7x8192 : 0 < S7x7x8192.numel
  shapeCasts_S7x7x8192_S7x7x8192 : S7x7x8192.ShapeCasts S7x7x8192
  shapeCasts_S7x7x524288_S49x524288 : S7x7x524288.ShapeCasts S49x524288
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x8192.size a ≤ S7x7x524288.size a
  hwx0_0 : ∀ i : grid0.Coords, EltTy.bits .f32 = 32 ∨ (Rect.block (s := S7x7x524288) S7x7x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x7x8192.size a ≤ S7x7x524288.size a
  hwx0_1 : ∀ i : grid0.Coords, EltTy.bits .f32 = 32 ∨ (Rect.block (s := S7x7x524288) S7x7x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x7x8192.size a ≤ S7x7x524288.size a
  hwx0_2 : ∀ i : grid0.Coords, EltTy.bits .f32 = 32 ∨ (Rect.block (s := S7x7x524288) S7x7x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7x7x8192.size a ≤ S7x7x524288.size a
  hwx0_3 : ∀ i : grid0.Coords, EltTy.bits .f32 = 32 ∨ (Rect.block (s := S7x7x524288) S7x7x8192.size (cc0_transform_3 i) (hinb0_3 i)).WholeWords (EltTy.packing .f32)

variable [Facts₀]

abbrev win0_0 : Pipeline.Window sig grid0 :=
  Pipeline.Window.ofSpec (Memref.whole main_v1) S7x7x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S7x7x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S7x7x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S7x7x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x524288x7x7 : Shape := ⟨4, ![1, 524288, 7, 7]⟩
abbrev S49x524288 : Shape := ⟨2, ![49, 524288]⟩
abbrev S1x7x7x524288 : Shape := ⟨4, ![1, 7, 7, 524288]⟩
abbrev S524288x49 : Shape := ⟨2, ![524288, 49]⟩
abbrev S524288x7x7 : Shape := ⟨3, ![524288, 7, 7]⟩

abbrev nBuf : Space → Nat
  | .hbm => 13
  | .vmem => 0
  | .smem => 0
  | _ => 0

abbrev bufTy : (tb : Table) → Fin (tcTables nBuf tb) → BufTy
  | .hbm, ⟨0, _⟩ => ⟨S1x524288x7x7, .f32⟩
  | .hbm, ⟨1, _⟩ => ⟨S49x524288, .f32⟩
  | .hbm, ⟨2, _⟩ => ⟨S49x524288, .f32⟩
  | .hbm, ⟨3, _⟩ => ⟨S1x7x7x524288, .f32⟩
  | .hbm, ⟨4, _⟩ => ⟨S49x524288, .f32⟩
  | .hbm, ⟨5, _⟩ => ⟨S524288x49, .f32⟩
  | .hbm, ⟨6, _⟩ => ⟨S524288x7x7, .f32⟩
  | .hbm, ⟨7, _⟩ => ⟨S524288x49, .f32⟩
  | .hbm, ⟨8, _⟩ => ⟨S524288x7x7, .f32⟩
  | .hbm, ⟨9, _⟩ => ⟨S524288x7x7, .f32⟩
  | .hbm, ⟨10, _⟩ => ⟨S524288x49, .f32⟩
  | .hbm, ⟨11, _⟩ => ⟨S49x524288, .f32⟩
  | .hbm, ⟨12, _⟩ => ⟨S49x524288, .f32⟩
  | _, _ => ⟨S1x524288x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  transposes_S1x524288x7x7_S1x7x7x524288_0_3_2_1 : S1x524288x7x7.Transposes [0, 3, 2, 1] S1x7x7x524288
  shapeCasts_S1x7x7x524288_S49x524288 : S1x7x7x524288.ShapeCasts S49x524288
  transposes_S49x524288_S524288x49_1_0 : S49x524288.Transposes [1, 0] S524288x49
  shapeCasts_S524288x49_S524288x7x7 : S524288x49.ShapeCasts S524288x7x7
  shapeCasts_S524288x7x7_S524288x49 : S524288x7x7.ShapeCasts S524288x49
  transposes_S524288x49_S49x524288_1_0 : S524288x49.Transposes [1, 0] S49x524288
  dot_S524288x7x7_S524288x7x7_S524288x7x7_2_1_1_2_0_0_wf : DotDims.WF S524288x7x7 S524288x7x7 S524288x7x7 [2] [1] [1] [2] [0] [0]

variable [Facts₀]

def dot_S524288x7x7_S524288x7x7_S524288x7x7_2_1_1_2_0_0 : DotDims S524288x7x7 S524288x7x7 S524288x7x7 where
  lhsContracting := [2]
  rhsContracting := [1]
  lhsNonContracting := [1]
  rhsNonContracting := [2]
  lhsBatch := [0]
  rhsBatch := [0]
  wf := dot_S524288x7x7_S524288x7x7_S524288x7x7_2_1_1_2_0_0_wf

class Facts : Prop extends Facts₀ where

variable [Facts]
-- ==== Proof.Spec.lean ====
/-
  The common value of the two programs, stated once over the argument arrays.

  For a channel `ch` let `X` be the 7×7 matrix `X[i, j] = x[0, ch, j, i]` (the transposed spatial slice of `x`)
  and `W` the 7×7 matrix `W[j, k] = weight[7 j + k, ch]` (column `ch` of `weight`, its 49 rows read as 7 rows of 7).
  Both programs compute, for every channel, the matrix product `X · W` plus the bias column read the same way:

      out[7 i + k, ch] = Σ_{j < 7} x[0, ch, j, i] · weight[7 j + k, ch]  +  bias[7 i + k, ch].

  The kernel writes the sum as seven multiply-adds onto a zero accumulator, the reference as one contraction;
  on the extended reals the two agree because addition is associative with neutral element zero
  (`unrolled_sum`): no distributivity or cancellation is involved, so no finiteness of the inputs is needed.
-/
import Idealize.ShloMosaic.PureOps.Ideal
import Idealize.ShloMosaic.Lib.ValueIdx

noncomputable section

open scoped BigOperators

namespace Cert.ChannelMatmul

open Idealize.ShloMosaic Idealize.ShloMosaic.ValueIdx

/-- Row `7 a + b` of a 49-row array: the pair `(a, b)` of a 7×7 matrix flattened row-major. -/
abbrev flat (a b : Fin 7) : Fin 49 := ⟨a.val * 7 + b.val, by omega⟩

/-- The quotient of a row number by seven: the matrix row. -/
abbrev rowHi (r : Fin 49) : Fin 7 := ⟨r.val / 7, by omega⟩
/-- Its remainder: the matrix column. -/
abbrev rowLo (r : Fin 49) : Fin 7 := ⟨r.val % 7, by omega⟩

/-- A row number is `flat` of its quotient and remainder. -/
theorem flat_hi_lo (r : Fin 49) : flat (rowHi r) (rowLo r) = r := Fin.ext (by show r.val / 7 * 7 + r.val % 7 = r.val; omega)

/-- Entry `(i, k)` of channel `ch`'s product plus bias. -/
def entry (x : (⟨4, ![1, 524288, 7, 7]⟩ : Shape).Idx → EReal) (w b : (⟨2, ![49, 524288]⟩ : Shape).Idx → EReal)
    (i k : Fin 7) (ch : Fin 524288) : EReal :=
  (∑ j : Fin 7, x (ix4 (0 : Fin 1) ch j i) * w (ix2 (flat j k) ch)) + b (ix2 (flat i k) ch)

/-- The whole result: row `r`, channel `ch` holds entry `(r / 7, r % 7)` of channel `ch`. -/
def result (x : (⟨4, ![1, 524288, 7, 7]⟩ : Shape).Idx → EReal) (w b : (⟨2, ![49, 524288]⟩ : Shape).Idx → EReal) :
    (⟨2, ![49, 524288]⟩ : Shape).Idx → EReal :=
  fun o => entry x w b (rowHi ⟨(o 0).val, (o 0).isLt⟩) (rowLo ⟨(o 0).val, (o 0).isLt⟩) ⟨(o 1).val, (o 1).isLt⟩

/-- The result at an index given by its coordinates. -/
theorem result_ix2 (x : (⟨4, ![1, 524288, 7, 7]⟩ : Shape).Idx → EReal) (w b : (⟨2, ![49, 524288]⟩ : Shape).Idx → EReal)
    (r : Fin 49) (ch : Fin 524288) : result x w b (ix2 r ch) = entry x w b (rowHi r) (rowLo r) ch := rfl

/-- Seven terms added one after the other onto zero are their sum. -/
theorem unrolled_sum (p : Fin 7 → EReal) :
    0 + p 0 + p 1 + p 2 + p 3 + p 4 + p 5 + p 6 = ∑ j : Fin 7, p j := by
  rw [Fin.sum_univ_seven, zero_add]

end Cert.ChannelMatmul

end
-- ==== Proof.RefValue.lean ====
/-
  The reference at an index.  Its chain of transposes and reshapes only renames coordinates:
  with `Xc[c, i, j] = x[0, c, j, i]` and `Wc[c, j, k] = weight[7 j + k, c]` the batched contraction is
  `Σ_j Xc[c, i, j] · Wc[c, j, k]`, laid back at row `7 i + k`, column `c`, and the bias is added there.
  Each layout step is read at an index by the generated stage lemmas; what is proved here is that the
  composed coordinate maps are the ones the common value names.
-/
import proofs.«141470_j20890720928459_1_alg».proof.Proof.Gen.ReferenceIdeal.Read
import proofs.«141470_j20890720928459_1_alg».proof.Proof.Spec

noncomputable section

open scoped BigOperators

namespace Cert.ReferenceIdeal.RefValue

open Cert.ReferenceIdeal Cert.ReferenceIdeal.Read Idealize.ShloMosaic Idealize.ShloMosaic.ValueIdx Cert.ChannelMatmul

/-- The left operand's element for the output index `o = (r, c)` and contraction index `j` is `x[0, c, j, r / 7]`:
    row `r` of the transposed product is entry `(r / 7, r % 7)` of channel `c`, whose left factor is
    `Xc[c, r / 7, j]`, the element `7 (r / 7) + j` of column `c` of the flattened transposed `x`. -/
theorem left_index (o : S49x524288.Idx) (j : Fin 7) :
    idx_main_v0 (idx_main_v1 (idx_main_v2 (idx_main_v3 (lidx_main_v6 (idx_main_v7 (idx_main_v8 o)) j))))
      = ix4 (0 : Fin 1) ⟨(o 1).val, (o 1).isLt⟩ j (rowHi ⟨(o 0).val, (o 0).isLt⟩) := by
  funext a; apply Fin.ext
  have h0 : (o 0).val < 49 := (o 0).isLt
  have h1 : (o 1).val < 524288 := (o 1).isLt
  have hj : j.val < 7 := j.isLt
  match a with
  | ⟨0, _⟩ => rfl
  | ⟨1, _⟩ =>
    show _ = (o 1).val; dsimp only
    generalize (o 0).val = r at h0 ⊢; generalize (o 1).val = c at h1 ⊢
    rw [show (c * 49 + r) / 49 = c by omega, show (c * 49 + r) / 7 % 7 = r / 7 by omega,
      show ((c * 7 + r / 7) * 7 + j.val) % 49 = r / 7 * 7 + j.val by omega, show ((c * 7 + r / 7) * 7 + j.val) / 49 = c by omega]
    omega
  | ⟨2, _⟩ =>
    show _ = j.val; dsimp only
    generalize (o 0).val = r at h0 ⊢; generalize (o 1).val = c at h1 ⊢
    rw [show (c * 49 + r) / 49 = c by omega, show (c * 49 + r) / 7 % 7 = r / 7 by omega,
      show ((c * 7 + r / 7) * 7 + j.val) % 49 = r / 7 * 7 + j.val by omega, show ((c * 7 + r / 7) * 7 + j.val) / 49 = c by omega]
    omega
  | ⟨3, _⟩ =>
    show _ = (o 0).val / 7; dsimp only
    generalize (o 0).val = r at h0 ⊢; generalize (o 1).val = c at h1 ⊢
    rw [show (c * 49 + r) / 49 = c by omega, show (c * 49 + r) / 7 % 7 = r / 7 by omega,
      show ((c * 7 + r / 7) * 7 + j.val) % 49 = r / 7 * 7 + j.val by omega, show ((c * 7 + r / 7) * 7 + j.val) / 49 = c by omega]
    omega

/-- The right operand's element is `weight[7 j + r % 7, c]`. -/
theorem right_index (o : S49x524288.Idx) (j : Fin 7) :
    idx_main_v4 (idx_main_v5 (ridx_main_v6 (idx_main_v7 (idx_main_v8 o)) j))
      = ix2 (flat j (rowLo ⟨(o 0).val, (o 0).isLt⟩)) ⟨(o 1).val, (o 1).isLt⟩ := by
  funext a; apply Fin.ext
  have h0 : (o 0).val < 49 := (o 0).isLt
  have h1 : (o 1).val < 524288 := (o 1).isLt
  have hj : j.val < 7 := j.isLt
  match a with
  | ⟨0, _⟩ =>
    show _ = j.val * 7 + (o 0).val % 7; dsimp only
    generalize (o 0).val = r at h0 ⊢; generalize (o 1).val = c at h1 ⊢
    rw [show (c * 49 + r) / 49 = c by omega, show (c * 49 + r) % 7 = r % 7 by omega]
    omega
  | ⟨1, _⟩ =>
    show _ = (o 1).val; dsimp only
    generalize (o 0).val = r at h0 ⊢; generalize (o 1).val = c at h1 ⊢
    rw [show (c * 49 + r) / 49 = c by omega, show (c * 49 + r) % 7 = r % 7 by omega]
    omega

/-- The bias is read at the output index itself. -/
theorem bias_index (o : S49x524288.Idx) :
    o = ix2 (flat (rowHi ⟨(o 0).val, (o 0).isLt⟩) (rowLo ⟨(o 0).val, (o 0).isLt⟩)) ⟨(o 1).val, (o 1).isLt⟩ := by
  funext a; apply Fin.ext
  have h0 : (o 0).val < 49 := (o 0).isLt
  match a with
  | ⟨0, _⟩ => show (o 0).val = (o 0).val / 7 * 7 + (o 0).val % 7; omega
  | ⟨1, _⟩ => rfl

/-- The reference's result is the common value of the argument arrays. -/
theorem reference_eq (x0 : (⟨S1x524288x7x7, .f32⟩ : BufTy).Contents (Elt Ideal)) (x1 x2 : (⟨S49x524288, .f32⟩ : BufTy).Contents (Elt Ideal)) :
    val_main_v9 (F := Ideal) x0 x1 x2 = result x0 x1 x2 := by
  funext o
  rw [val_main_v9_apply, val_main_v8_apply, val_main_v7_apply, val_main_v6_apply]
  simp only [val_main_v3_apply, val_main_v2_apply, val_main_v1_apply, val_main_v0_apply, val_main_v5_apply, val_main_v4_apply,
    left_index, right_index]
  unfold result entry
  exact congrArg₂ (· + ·) rfl (congrArg x2 (bias_index o))

end Cert.ReferenceIdeal.RefValue

end
-- ==== Proof.KerBlock.lean ====
/-
  One grid point of the kernel.  The body holds three blocks of shape [7, 7, 8192] — `xb[j, i, l]`, `wb[j, k, l]`,
  `bb[i, k, l]`, the last axis a run of 8192 channels — and stores

      out[i, k, l] = ((((((0 + xb[0,i,l]·wb[0,k,l]) + xb[1,i,l]·wb[1,k,l]) + …) + xb[6,i,l]·wb[6,k,l]) + bb[i,k,l].

  Slab `j` of `xb` is spread along the middle axis (every `k` sees `xb[j, i, l]`), slab `j` of `wb` along the
  first (every `i` sees `wb[j, k, l]`); seven such products are added one after the other onto zero, so the
  stored entry is `Σ_j xb[j,i,l]·wb[j,k,l] + bb[i,k,l]`.
-/
import proofs.«141470_j20890720928459_1_alg».proof.Proof.Gen.KernelIdeal.Frame
import proofs.«141470_j20890720928459_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.ChannelMatmul

/-- A slab [1, 7, 8192] spread along the middle axis reads, at `(i, k, l)`, its entry `(0, i, l)`. -/
theorem spread_mid (v : Vec Ideal S1x7x8192 .f32) (i k : Fin 7) (l : Fin 8192) :
    broadcastTo S7x7x8192 (shapeCast S7x1x8192 (shapeCast S7x8192 v shapeCasts_S1x7x8192_S7x8192) shapeCasts_S7x8192_S7x1x8192)
        broadcasts_S7x1x8192_S7x7x8192 (ix3 i k l) = v (ix3 (0 : Fin 1) i l) := by
  refine (broadcastTo_apply _ broadcasts_S7x1x8192_S7x7x8192 (ix3 i k l) (ix3 i (0 : Fin 1) l) (fun a => ?_)).trans ?_
  · match a with
    | ⟨0, _⟩ => rfl
    | ⟨1, _⟩ => rfl
    | ⟨2, _⟩ => rfl
  refine (shapeCast_apply _ shapeCasts_S7x8192_S7x1x8192 (ix3 i (0 : Fin 1) l) (ix2 i l) ?_).trans ?_
  · rewrite [Shape.rowMajor_val_two, Shape.rowMajor_val_three]
    show i.val * 8192 + l.val = (i.val * 1 + 0) * 8192 + l.val
    omega
  refine shapeCast_apply _ shapeCasts_S1x7x8192_S7x8192 (ix2 i l) (ix3 (0 : Fin 1) i l) ?_
  rewrite [Shape.rowMajor_val_three, Shape.rowMajor_val_two]
  show (0 * 7 + i.val) * 8192 + l.val = i.val * 8192 + l.val
  omega

/-- A slab [1, 7, 8192] spread along the first axis reads, at `(i, k, l)`, its entry `(0, k, l)`. -/
theorem spread_first (v : Vec Ideal S1x7x8192 .f32) (i k : Fin 7) (l : Fin 8192) :
    broadcastTo S7x7x8192 (shapeCast S1x7x8192 (shapeCast S7x8192 v shapeCasts_S1x7x8192_S7x8192) shapeCasts_S7x8192_S1x7x8192)
        broadcasts_S1x7x8192_S7x7x8192 (ix3 i k l) = v (ix3 (0 : Fin 1) k l) := by
  refine (broadcastTo_apply _ broadcasts_S1x7x8192_S7x7x8192 (ix3 i k l) (ix3 (0 : Fin 1) k l) (fun a => ?_)).trans ?_
  · match a with
    | ⟨0, _⟩ => rfl
    | ⟨1, _⟩ => rfl
    | ⟨2, _⟩ => rfl
  refine (shapeCast_apply _ shapeCasts_S7x8192_S1x7x8192 (ix3 (0 : Fin 1) k l) (ix2 k l) ?_).trans ?_
  · rewrite [Shape.rowMajor_val_two, Shape.rowMajor_val_three]
    show k.val * 8192 + l.val = (0 * 7 + k.val) * 8192 + l.val
    omega
  refine shapeCast_apply _ shapeCasts_S1x7x8192_S7x8192 (ix2 k l) (ix3 (0 : Fin 1) k l) ?_
  rewrite [Shape.rowMajor_val_three, Shape.rowMajor_val_two]
  show (0 * 7 + k.val) * 8192 + l.val = k.val * 8192 + l.val
  omega

/-- One multiply-add term of the body: the product of the two spread slabs. -/
def term (a b : Vec Ideal S1x7x8192 .f32) : FVec Ideal S7x7x8192 .f32 :=
  mulf (broadcastTo S7x7x8192 (shapeCast S7x1x8192 (shapeCast S7x8192 a shapeCasts_S1x7x8192_S7x8192) shapeCasts_S7x8192_S7x1x8192) broadcasts_S7x1x8192_S7x7x8192)
    (broadcastTo S7x7x8192 (shapeCast S1x7x8192 (shapeCast S7x8192 b shapeCasts_S1x7x8192_S7x8192) shapeCasts_S7x8192_S1x7x8192) broadcasts_S1x7x8192_S7x7x8192)

/-- At `(i, k, l)` it is `a[0, i, l] · b[0, k, l]`. -/
theorem term_apply (a b : Vec Ideal S1x7x8192 .f32) (i k : Fin 7) (l : Fin 8192) :
    term a b (ix3 i k l) = a (ix3 (0 : Fin 1) i l) * b (ix3 (0 : Fin 1) k l) :=
  (mulf_apply _ _ _).trans (congrArg₂ (· * ·) (spread_mid a i k l) (spread_first b i k l))

/-- The stored payload, entry by entry: the seven terms added in order onto the zero splat, then the bias block. -/
theorem payload_apply (a0 b0 a1 b1 a2 b2 a3 b3 a4 b4 a5 b5 a6 b6 : Vec Ideal S1x7x8192 .f32) (z : Vec Ideal S7x7x8192 .f32)
    (y : S7x7x8192.Idx) :
    k0_pay1 (F := Ideal) (k0_pay4 (k0_pay2 a0 b0 a1 b1 a2 b2) (k0_pay3 a3) b3 a4 b4 a5 b5 a6 b6) (k0_pay5 z) y
      = Ideal.ofBits .f32 0x00000000#32 + term a0 b0 y + term a1 b1 y + term a2 b2 y + term a3 b3 y + term a4 b4 y + term a5 b5 y
          + term a6 b6 y + shapeCast S7x7x8192 z shapeCasts_S7x7x8192_S7x7x8192 y := rfl

/-- The zero offsets of a whole-block access, spelt as the constant function. -/
theorem zero_off : (![0, 0, 0] : Fin 3 → Nat) = fun _ => 0 := funext fun a => by fin_cases a <;> rfl

/-- A load of the slab at offset `n` along the first axis reads, at `(0, i, l)`, the block's entry `(n, i, l)`. -/
theorem slab (x : Vec Ideal S7x7x8192 .f32) (n : Nat) (hn : n < 7)
    (inb : ∀ a, (![n, 0, 0] : Fin 3 → Nat) a + S1x7x8192.size a ≤ S7x7x8192.size a) (i : Fin 7) (l : Fin 8192) :
    View.ld x (Rect.unit (s := S7x7x8192) ![n, 0, 0] S1x7x8192.size inb) (ix3 (0 : Fin 1) i l) = x (ix3 (⟨n, hn⟩ : Fin 7) i l) := by
  show x _ = x _
  refine congrArg x (funext fun a => Fin.ext ?_)
  match a with
  | ⟨0, _⟩ => show n + 1 * 0 = n; omega
  | ⟨1, _⟩ => show 0 + 1 * i.val = i.val; omega
  | ⟨2, _⟩ => show 0 + 1 * l.val = l.val; omega

/-- WHAT THE BODY LEAVES in the output's buffer, entry by entry: the per-channel product plus the bias. -/
theorem block_entry (x0 x1 x2 : Vec Ideal S7x7x8192 .f32) (i k : Fin 7) (l : Fin 8192) :
    out0_3 x0 x1 x2 (ix3 i k l) = (∑ j : Fin 7, x0 (ix3 j i l) * x1 (ix3 j k l)) + x2 (ix3 i k l) := by
  unfold out0_3
  rw [View.canon_unit_zero zero_off]
  refine (payload_apply _ _ _ _ _ _ _ _ _ _ _ _ _ _ _ _).trans ?_
  rw [Ideal.ofBits_zero_f32, shapeCast_self, View.ld_unit_zero (S := S7x7x8192) zero_off]
  simp only [term_apply]
  rw [slab x0 0 (by omega), slab x0 1 (by omega), slab x0 2 (by omega), slab x0 3 (by omega), slab x0 4 (by omega), slab x0 5 (by omega), slab x0 6 (by omega),
    slab x1 0 (by omega), slab x1 1 (by omega), slab x1 2 (by omega), slab x1 3 (by omega), slab x1 4 (by omega), slab x1 5 (by omega), slab x1 6 (by omega)]
  exact congrArg (· + x2 (ix3 i k l)) (unrolled_sum (fun j => x0 (ix3 j i l) * x1 (ix3 j k l)))

end Cert.KernelIdeal.Block

end
-- ==== Proof.KerArray.lean ====
/-
  The region's result array.  The grid has 64 points; point `t` stages block `(0, 0, t)` of each of the three
  operand arrays of shape [7, 7, 524288] — channels `8192 t … 8192 t + 8191` — and writes back the same block of the
  result.  So entry `(a, b, l)` of a block at point `t` is entry `(a, b, 8192 t + l)` of its array, every index
  `(i, k, L)` of the result lies in the block of point `L / 8192`, and the array after the run is, index by index,

      R[i, k, L] = Σ_j xT[j, i, L] · wR[j, k, L] + bR[i, k, L]

  of the operand arrays as the region finds them.
-/
import proofs.«141470_j20890720928459_1_alg».proof.Proof.Gen.KernelIdeal.Frame
import proofs.«141470_j20890720928459_1_alg».proof.Proof.KerBlock
import Idealize.ShloMosaic.Lib.Pipeline.Value
import Idealize.ShloMosaic.Lib.ValueIdx

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Cert.ChannelMatmul Cert.KernelIdeal.Block
open Idealize.ShloMosaic.Pipeline (Dat)

variable (m : (ℓ : Loc nD τ sig) → Buf (Elt Ideal) ℓ)

/-- The region's result as one function of its three operand arrays. -/
def regionValue (xt wr br : Vec Ideal S7x7x524288 .f32) : Vec Ideal S7x7x524288 .f32 := fun y =>
  (∑ j : Fin 7, xt (ix3 j ⟨(y 0).val, (y 0).isLt⟩ ⟨(y 2).val, (y 2).isLt⟩) * wr (ix3 j ⟨(y 1).val, (y 1).isLt⟩ ⟨(y 2).val, (y 2).isLt⟩))
    + br (ix3 ⟨(y 0).val, (y 0).isLt⟩ ⟨(y 1).val, (y 1).isLt⟩ ⟨(y 2).val, (y 2).isLt⟩)

/-- Read at an index given by its coordinates. -/
theorem regionValue_ix3 (xt wr br : Vec Ideal S7x7x524288 .f32) (i k : Fin 7) (L : Fin 524288) :
    regionValue xt wr br (ix3 i k L) = (∑ j : Fin 7, xt (ix3 j i L) * wr (ix3 j k L)) + br (ix3 i k L) := rfl

/-- The grid point as a number below 64. -/
theorem point_lt (t : Fin cfg0.N) : t.val < 64 := lt_of_lt_of_eq t.isLt N_0

/-- The printed index maps, decided over the grid: every window's block at point `t` is block `(0, 0, t)`. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

/-- Entry `(a, b, l)` of the first operand's block at point `t` is entry `(a, b, 8192 t + l)` of its array. -/
theorem read_blk0 (c : Dev nD) (t : Fin cfg0.N) (a b : Fin 7) (l : Fin 8192) (L : Fin 524288) (hL : L.val = t.val * 8192 + l.val) :
    iblk m c 0 t (ix3 a b l) = V m c main_v1 (ix3 a b L) := by
  obtain ⟨e0, e1, e2, -⟩ := idx_facts t
  show V m c main_v1 (((cfg0.win 0).blk t).view.emb (ix3 a b l)) = V m c main_v1 (ix3 a b L)
  have h : ((cfg0.win 0).blk t).view.emb (ix3 a b l) = ix3 a b L := by
    funext ax; apply Fin.ext
    match ax with
    | ⟨0, _⟩ => show win0_0.index t (0 : Fin 3) * 7 + 1 * a.val = a.val; omega
    | ⟨1, _⟩ => show win0_0.index t (1 : Fin 3) * 7 + 1 * b.val = b.val; omega
    | ⟨2, _⟩ => show win0_0.index t (2 : Fin 3) * 8192 + 1 * l.val = L.val; omega
  rw [h]

/-- The same for the second operand. -/
theorem read_blk1 (c : Dev nD) (t : Fin cfg0.N) (a b : Fin 7) (l : Fin 8192) (L : Fin 524288) (hL : L.val = t.val * 8192 + l.val) :
    iblk m c 1 t (ix3 a b l) = V m c main_v2 (ix3 a b L) := by
  obtain ⟨-, -, -, e0, e1, e2, -⟩ := idx_facts t
  show V m c main_v2 (((cfg0.win 1).blk t).view.emb (ix3 a b l)) = V m c main_v2 (ix3 a b L)
  have h : ((cfg0.win 1).blk t).view.emb (ix3 a b l) = ix3 a b L := by
    funext ax; apply Fin.ext
    match ax with
    | ⟨0, _⟩ => show win0_1.index t (0 : Fin 3) * 7 + 1 * a.val = a.val; omega
    | ⟨1, _⟩ => show win0_1.index t (1 : Fin 3) * 7 + 1 * b.val = b.val; omega
    | ⟨2, _⟩ => show win0_1.index t (2 : Fin 3) * 8192 + 1 * l.val = L.val; omega
  rw [h]

/-- The same for the third operand. -/
theorem read_blk2 (c : Dev nD) (t : Fin cfg0.N) (a b : Fin 7) (l : Fin 8192) (L : Fin 524288) (hL : L.val = t.val * 8192 + l.val) :
    iblk m c 2 t (ix3 a b l) = V m c main_v3 (ix3 a b L) := by
  obtain ⟨-, -, -, -, -, -, e0, e1, e2, -⟩ := idx_facts t
  show V m c main_v3 (((cfg0.win 2).blk t).view.emb (ix3 a b l)) = V m c main_v3 (ix3 a b L)
  have h : ((cfg0.win 2).blk t).view.emb (ix3 a b l) = ix3 a b L := by
    funext ax; apply Fin.ext
    match ax with
    | ⟨0, _⟩ => show win0_2.index t (0 : Fin 3) * 7 + 1 * a.val = a.val; omega
    | ⟨1, _⟩ => show win0_2.index t (1 : Fin 3) * 7 + 1 * b.val = b.val; omega
    | ⟨2, _⟩ => show win0_2.index t (2 : Fin 3) * 8192 + 1 * l.val = L.val; omega
  rw [h]

/-- And where the result's block at point `t` lies in its array. -/
theorem emb_blk3 (t : Fin cfg0.N) (a b : Fin 7) (l : Fin 8192) (L : Fin 524288) (hL : L.val = t.val * 8192 + l.val) :
    ((cfg0.win 3).blk t).view.emb (ix3 a b l) = ix3 a b L := by
  obtain ⟨-, -, -, -, -, -, -, -, -, e0, e1, e2⟩ := idx_facts t
  funext ax; apply Fin.ext
  match ax with
  | ⟨0, _⟩ => show win0_3.index t (0 : Fin 3) * 7 + 1 * a.val = a.val; omega
  | ⟨1, _⟩ => show win0_3.index t (1 : Fin 3) * 7 + 1 * b.val = b.val; omega
  | ⟨2, _⟩ => show win0_3.index t (2 : Fin 3) * 8192 + 1 * l.val = L.val; omega

/-- What point `t` leaves at `(i, k, l)` of the output's buffer is the result's value at `(i, k, 8192 t + l)`. -/
theorem point_value (c : Dev nD) (t : Fin cfg0.N) (i k : Fin 7) (l : Fin 8192) (L : Fin 524288) (hL : L.val = t.val * 8192 + l.val) :
    out0_3 (iblk m c 0 t) (iblk m c 1 t) (iblk m c 2 t) (ix3 i k l)
      = regionValue (V m c main_v1) (V m c main_v2) (V m c main_v3) (ix3 i k L) := by
  refine (block_entry (iblk m c 0 t) (iblk m c 1 t) (iblk m c 2 t) i k l).trans ?_
  rw [regionValue_ix3, read_blk2 m c t i k l L hL]
  refine congrArg (· + V m c main_v3 (ix3 i k L)) (Finset.sum_congr rfl fun j _ => ?_)
  rw [read_blk0 m c t j i l L hL, read_blk1 m c t j k l L hL]

/-- WHAT POINT `t` WRITES BACK is block `t` of the result's value. -/
theorem flushed_eq (c : Dev nD) (t : Fin cfg0.N) :
    (dats m 0 c).flushed 3 t
      = ((cfg0.win 3).blk t).view.read (Elt Ideal) (regionValue (V m c main_v1) (V m c main_v2) (V m c main_v3)) := by
  show (cfg0.win 3).cut (grid0.coords t) ((dats m 0 c).after 3 t) = _
  rw [after0_3]
  funext y
  obtain ⟨i, k, l, rfl⟩ : ∃ (i k : Fin 7) (l : Fin 8192), y = ix3 i k l := ⟨y 0, y 1, y 2, eq_ix3 y⟩
  have ht := point_lt t
  have hl : l.val < 8192 := l.isLt
  show out0_3 (iblk m c 0 t) (iblk m c 1 t) (iblk m c 2 t) (ix3 i k l)
    = regionValue (V m c main_v1) (V m c main_v2) (V m c main_v3) (((cfg0.win 3).blk t).view.emb (ix3 i k l))
  rw [emb_blk3 t i k l ⟨t.val * 8192 + l.val, by omega⟩ rfl]
  exact point_value m c t i k l ⟨t.val * 8192 + l.val, by omega⟩ rfl

/-- An index of the result array is in point `t`'s block iff each coordinate is in the block's range on its axis. -/
theorem mem_blk (t : Fin cfg0.N) (y : S7x7x524288.Idx) :
    y ∈ ((cfg0.win 3).blk t).view.set ↔ ∀ a : Fin 3, win0_3.index t a * S7x7x8192.size a ≤ (y a).val ∧ (y a).val < win0_3.index t a * S7x7x8192.size a + S7x7x8192.size a := by
  show y ∈ ((View.whole main_v4).slice (win0_3.rect t)).set ↔ _
  rw [View.set_slice_whole, Rect.mem_set_unit]
  exact Iff.rfl

/-- Every index of the result lies in the block of the point its channel falls to. -/
theorem covered (y : S7x7x524288.Idx) :
    ∃ t : Fin cfg0.N, (cfg0.win 3).flush t = true ∧ y ∈ ((cfg0.win 3).blk t).view.set := by
  have h0 : (y 0).val < 7 := (y 0).isLt
  have h1 : (y 1).val < 7 := (y 1).isLt
  have h2 : (y 2).val < 524288 := (y 2).isLt
  have hN : (y 2).val / 8192 < cfg0.N := lt_of_lt_of_eq (by omega : (y 2).val / 8192 < 64) N_0.symm
  obtain ⟨-, -, -, -, -, -, -, -, -, e0, e1, e2⟩ := idx_facts ⟨(y 2).val / 8192, hN⟩
  refine ⟨⟨(y 2).val / 8192, hN⟩, flush0_3 _, ?_⟩
  rw [mem_blk]
  intro a
  match a with
  | ⟨0, _⟩ =>
    show win0_3.index ⟨(y 2).val / 8192, hN⟩ (0 : Fin 3) * 7 ≤ (y 0).val ∧ (y 0).val < win0_3.index ⟨(y 2).val / 8192, hN⟩ (0 : Fin 3) * 7 + 7
    omega
  | ⟨1, _⟩ =>
    show win0_3.index ⟨(y 2).val / 8192, hN⟩ (1 : Fin 3) * 7 ≤ (y 1).val ∧ (y 1).val < win0_3.index ⟨(y 2).val / 8192, hN⟩ (1 : Fin 3) * 7 + 7
    omega
  | ⟨2, _⟩ =>
    show win0_3.index ⟨(y 2).val / 8192, hN⟩ (2 : Fin 3) * 8192 ≤ (y 2).val ∧ (y 2).val < win0_3.index ⟨(y 2).val / 8192, hN⟩ (2 : Fin 3) * 8192 + 8192
    have e2' : win0_3.index ⟨(y 2).val / 8192, hN⟩ (2 : Fin 3) = (y 2).val / 8192 := e2
    omega

/-- THE RESULT ARRAY after the run. -/
theorem final (c : Dev nD) :
    (dats m 0 c).arrAt 3 cfg0.N = regionValue (V m c main_v1) (V m c main_v2) (V m c main_v3) :=
  (dats m 0 c).arrAt_eq_of_cover 3 _ (fun t _ => flushed_eq m c t) covered

end Cert.KernelIdeal.Region

end
-- ==== Proof.KerValue.lean ====
/-
  The whole kernel program.  Before the region the host lays the arguments out with the channel axis last:
  `xT[j, i, c] = x[0, c, j, i]` (a reshape dropping the unit axis, then a transpose), `wR[j, k, c] = weight[7 j + k, c]`
  and `bR[i, k, c] = bias[7 i + k, c]` (reshapes splitting the 49 rows as 7 × 7).  After the region the result
  `R[i, k, c]` is reshaped back to row `7 i + k`, column `c`.  With the region's value
  `R[i, k, c] = Σ_j xT[j, i, c] · wR[j, k, c] + bR[i, k, c]` the program's result is the common value.
-/
import proofs.«141470_j20890720928459_1_alg».proof.Proof.Gen.KernelIdeal.Frame
import proofs.«141470_j20890720928459_1_alg».proof.Proof.KerArray
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.ChannelMatmul Cert.KernelIdeal.Region

variable (m : (ℓ : Loc nD τ sig) → Buf (Elt Ideal) ℓ) (ρ : Dev nD → PrngReg)

/-! ## The operands as the region finds them -/

/-- The first operand: `x` without its unit axis, transposed to put the channel axis last. -/
theorem V_xT (c : Dev nD) : (V m c main_v1 : S7x7x524288.Idx → EReal)
    = transpose S7x7x524288 [1, 2, 0] (shapeCast S524288x7x7 (m ((c : Thread nD τ).loc main_arg0)) shapeCasts_S1x524288x7x7_S524288x7x7)
        transposes_S524288x7x7_S7x7x524288_1_2_0 := by
  show StableHlo.after hostOps0 (fun b => m (c, b)) (Proc.devRef .tc main_v1) = _
  after_results
  rfl

/-- The second: `weight` with its rows split as 7 × 7. -/
theorem V_wR (c : Dev nD) : (V m c main_v2 : S7x7x524288.Idx → EReal)
    = shapeCast S7x7x524288 (m ((c : Thread nD τ).loc main_arg1)) shapeCasts_S49x524288_S7x7x524288 := by
  show StableHlo.after hostOps0 (fun b => m (c, b)) (Proc.devRef .tc main_v2) = _
  after_results
  rfl

/-- The third: `bias`, likewise. -/
theorem V_bR (c : Dev nD) : (V m c main_v3 : S7x7x524288.Idx → EReal)
    = shapeCast S7x7x524288 (m ((c : Thread nD τ).loc main_arg2)) shapeCasts_S49x524288_S7x7x524288 := by
  show StableHlo.after hostOps0 (fun b => m (c, b)) (Proc.devRef .tc main_v3) = _
  after_results
  rfl

/-- `xT[j, i, c] = x[0, c, j, i]`. -/
theorem xT_apply (x : (⟨S1x524288x7x7, .f32⟩ : BufTy).Contents (Elt Ideal)) (j i : Fin 7) (ch : Fin 524288) :
    transpose S7x7x524288 [1, 2, 0] (shapeCast S524288x7x7 x shapeCasts_S1x524288x7x7_S524288x7x7)
        transposes_S524288x7x7_S7x7x524288_1_2_0 (ix3 j i ch) = x (ix4 (0 : Fin 1) ch j i) := by
  refine (transpose_apply [1, 2, 0] _ transposes_S524288x7x7_S7x7x524288_1_2_0 (ix3 j i ch) (ix3 ch j i) (fun b => ?_)).trans ?_
  · match b with
    | ⟨0, _⟩ => rfl
    | ⟨1, _⟩ => rfl
    | ⟨2, _⟩ => rfl
  refine shapeCast_apply x shapeCasts_S1x524288x7x7_S524288x7x7 (ix3 ch j i) (ix4 (0 : Fin 1) ch j i) ?_
  rewrite [Shape.rowMajor_val_four, Shape.rowMajor_val_three]
  show ((0 * 524288 + ch.val) * 7 + j.val) * 7 + i.val = (ch.val * 7 + j.val) * 7 + i.val
  omega

/-- `wR[a, b, c] = weight[7 a + b, c]`, and the same for the bias. -/
theorem rows_apply (w : (⟨S49x524288, .f32⟩ : BufTy).Contents (Elt Ideal)) (a b : Fin 7) (ch : Fin 524288) :
    shapeCast S7x7x524288 w shapeCasts_S49x524288_S7x7x524288 (ix3 a b ch) = w (ix2 (flat a b) ch) := by
  refine shapeCast_apply w shapeCasts_S49x524288_S7x7x524288 (ix3 a b ch) (ix2 (flat a b) ch) ?_
  rewrite [Shape.rowMajor_val_two, Shape.rowMajor_val_three]
  show (a.val * 7 + b.val) * 524288 + ch.val = (a.val * 7 + b.val) * 524288 + ch.val
  rfl

/-! ## The result after the region's host tail -/

/-- The program's result buffer after the tail: the region's array, its first two axes merged. -/
theorem tail_value (c : Dev nD) :
    (Pipeline.afterTail₀ cfgs (dats m) 0 (V0 m) [hostOps1] c main_v5 : S49x524288.Idx → EReal)
      = shapeCast S49x524288 (regionValue (V m c main_v1) (V m c main_v2) (V m c main_v3)) shapeCasts_S7x7x524288_S49x524288 := by
  unfold Pipeline.afterTail₀
  show StableHlo.after hostOps1 _ (Proc.devRef .tc main_v5) = _
  after_results
  rw [(Pipeline.withArrays_arr spec0 launch0.win.arr_inj c _ _ 3).trans (final m c)]
  rfl

/-- THE KERNEL PROGRAM'S RESULT is the common value of its arguments. -/
theorem kernel_value (c : Dev nD) :
    (Pipeline.afterTail₀ cfgs (dats m) 0 (V0 m) [hostOps1] c main_v5 : S49x524288.Idx → EReal)
      = result (m ((c : Thread nD τ).loc main_arg0)) (m ((c : Thread nD τ).loc main_arg1)) (m ((c : Thread nD τ).loc main_arg2)) := by
  rw [tail_value]
  funext o
  obtain ⟨r, ch, rfl⟩ : ∃ (r : Fin 49) (ch : Fin 524288), o = ix2 r ch := ⟨o 0, o 1, eq_ix2 o⟩
  have hr : r.val < 49 := r.isLt
  refine (shapeCast_apply _ shapeCasts_S7x7x524288_S49x524288 (ix2 r ch) (ix3 (rowHi r) (rowLo r) ch) ?_).trans ?_
  · rewrite [Shape.rowMajor_val_three, Shape.rowMajor_val_two]
    show (r.val / 7 * 7 + r.val % 7) * 524288 + ch.val = r.val * 524288 + ch.val
    omega
  rw [regionValue_ix3, result_ix2, V_xT, V_wR, V_bR, rows_apply]
  unfold entry
  refine congrArg (· + _) (Finset.sum_congr rfl fun j _ => ?_)
  rw [xT_apply, rows_apply]

/-! ## The run -/

/-- Every weakly fair execution of the kernel program terminates with its result at the common value of the
    arguments and the arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (kernel_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Whole

end
-- ==== Proof.lean ====
/-
  A per-channel 7×7 matrix product plus bias, 524288 channels.  For channel `c` both programs compute

      out[7 i + k, c] = Σ_{j < 7} x[0, c, j, i] · weight[7 j + k, c] + bias[7 i + k, c].

  The kernel moves the channel axis last on the host, runs over 64 blocks of 8192 channels adding the seven products
  one after the other onto a zero accumulator, and reshapes the result back; the reference transposes and reshapes to
  a batch of 7×7 matrices, contracts once, and transposes back.  On the extended reals the two sums agree by
  associativity of addition alone (Proof/Spec.lean), so the precondition is not used.

  Proof/Spec.lean states the common value; Proof/RefValue.lean reads the reference's run at an index;
  Proof/KerBlock.lean one grid point of the kernel, Proof/KerArray.lean the region's result array and
  Proof/KerValue.lean the kernel program around it.  The ideal pass rewrote nothing, so the preservation claim is
  trivially true.
-/
import proofs.«141470_j20890720928459_1_alg».proof.Defs
import proofs.«141470_j20890720928459_1_alg».proof.Proof.Gen.Kernel
import proofs.«141470_j20890720928459_1_alg».proof.Proof.Gen.Kernel.Skeleton
import proofs.«141470_j20890720928459_1_alg».proof.Proof.Gen.Kernel.Launch
import proofs.«141470_j20890720928459_1_alg».proof.Proof.Gen.Kernel.Points
import proofs.«141470_j20890720928459_1_alg».proof.Proof.Gen.Kernel.Frame
import proofs.«141470_j20890720928459_1_alg».proof.Proof.Gen.KernelIdeal
import proofs.«141470_j20890720928459_1_alg».proof.Proof.Gen.KernelIdeal.Skeleton
import proofs.«141470_j20890720928459_1_alg».proof.Proof.Gen.KernelIdeal.Launch
import proofs.«141470_j20890720928459_1_alg».proof.Proof.Gen.KernelIdeal.Points
import proofs.«141470_j20890720928459_1_alg».proof.Proof.Gen.KernelIdeal.Frame
import proofs.«141470_j20890720928459_1_alg».proof.Proof.Gen.ReferenceIdeal
import proofs.«141470_j20890720928459_1_alg».proof.Proof.Gen.ReferenceIdeal.Run
import proofs.«141470_j20890720928459_1_alg».proof.Proof.Gen.ReferenceIdeal.Read
import proofs.«141470_j20890720928459_1_alg».proof.Proof.Gen.Pre_finite_inputs
import proofs.«141470_j20890720928459_1_alg».proof.Proof.RefValue
import proofs.«141470_j20890720928459_1_alg».proof.Proof.KerValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end with the common value of the arguments: the kernel by its run read through the region and the
    host operations around it, the reference by its run read stage by stage, on arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
